-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3 : Shape := ⟨2, ![32, 3]⟩
abbrev S8x3x128x512 : Shape := ⟨4, ![8, 3, 128, 512]⟩
abbrev S8x3 : Shape := ⟨2, ![8, 3]⟩
abbrev S8x3x128 : Shape := ⟨3, ![8, 3, 128]⟩
abbrev S_ : Shape := ⟨0, ![]⟩

abbrev nBuf : Space → Nat
  | .hbm => 20
  | .vmem => 13
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3, .f32⟩
  | .hbm, ⟨3, _⟩ => ⟨S32x3, .f32⟩
  | .hbm, ⟨4, _⟩ => ⟨S32x3, .f32⟩
  | .hbm, ⟨5, _⟩ => ⟨S32x3, .f32⟩
  | .hbm, ⟨6, _⟩ => ⟨S32x3, .f32⟩
  | .hbm, ⟨7, _⟩ => ⟨S_, .f32⟩
  | .hbm, ⟨8, _⟩ => ⟨S32x3, .f32⟩
  | .hbm, ⟨9, _⟩ => ⟨S32x3, .f32⟩
  | .hbm, ⟨10, _⟩ => ⟨S32x3, .f32⟩
  | .hbm, ⟨11, _⟩ => ⟨S32x3, .f32⟩
  | .hbm, ⟨12, _⟩ => ⟨S32x3, .f32⟩
  | .hbm, ⟨13, _⟩ => ⟨S_, .f32⟩
  | .hbm, ⟨14, _⟩ => ⟨S32x3, .f32⟩
  | .hbm, ⟨15, _⟩ => ⟨S32x3, .f32⟩
  | .hbm, ⟨16, _⟩ => ⟨S32x3, .f32⟩
  | .hbm, ⟨17, _⟩ => ⟨S32x3, .f32⟩
  | .hbm, ⟨18, _⟩ => ⟨S_, .f32⟩
  | .hbm, ⟨19, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x3x128x512, .f32⟩
  | .local _ .vmem, ⟨3, _⟩ => ⟨S8x3x128x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S8x3, .f32⟩
  | .local _ .vmem, ⟨10, _⟩ => ⟨S8x3, .f32⟩
  | .local _ .vmem, ⟨11, _⟩ => ⟨S8x3, .f32⟩
  | .local _ .vmem, ⟨12, _⟩ => ⟨S8x3, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_25 : BitVec 32 := 0#32
  let v30 : BitVec 1 := Scalar.cmpi .ne v29 c0_i32_25
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x3x128x512_S8x3x128x512_0_0_0_0 : ∀ a, (![0, 0, 0, 0] : Fin 4 → Nat) a + S8x3x128x512.size a ≤ S8x3x128x512.size a
  h_S8x3x128x512 : 0 < S8x3x128x512.numel
  reduces_S8x3x128x512_S8x3x128 : S8x3x128x512.Reduces [3] S8x3x128
  reduces_S8x3x128_S8x3 : S8x3x128.Reduces [2] S8x3
  bcast_S_S32x3 : S_.BroadcastsInDim S32x3 (![] : Fin 0 → Fin S32x3.rank)
  reducesTo_S32x3_S_d0_1 : S32x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S32x3x512x512.size a
  hwx0_0 : ∀ i : grid0.Coords, EltTy.bits .f32 = 32 ∨ (Rect.block (s := S32x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x512.size a ≤ S32x3x512x512.size a
  hwx0_1 : ∀ i : grid0.Coords, EltTy.bits .f32 = 32 ∨ (Rect.block (s := S32x3x512x512) S8x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S32x3.size a
  hwx0_2 : ∀ i : grid0.Coords, EltTy.bits .f32 = 32 ∨ (Rect.block (s := S32x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3.size a ≤ S32x3.size a
  hwx0_3 : ∀ i : grid0.Coords, EltTy.bits .f32 = 32 ∨ (Rect.block (s := S32x3) S8x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3.size a ≤ S32x3.size a
  hwx0_4 : ∀ i : grid0.Coords, EltTy.bits .f32 = 32 ∨ (Rect.block (s := S32x3) S8x3.size (cc0_transform_4 i) (hinb0_4 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S32x3 : Shape := ⟨2, ![32, 3]⟩

abbrev nBuf : Space → Nat
  | .hbm => 28
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3, .f32⟩
  | .hbm, ⟨4, _⟩ => ⟨S_, .f32⟩
  | .hbm, ⟨5, _⟩ => ⟨S32x3, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S32x3, .f32⟩
  | .hbm, ⟨10, _⟩ => ⟨S_, .f32⟩
  | .hbm, ⟨11, _⟩ => ⟨S32x3, .f32⟩
  | .hbm, ⟨12, _⟩ => ⟨S32x3, .f32⟩
  | .hbm, ⟨13, _⟩ => ⟨S32x3, .f32⟩
  | .hbm, ⟨14, _⟩ => ⟨S32x3, .f32⟩
  | .hbm, ⟨15, _⟩ => ⟨S_, .f32⟩
  | .hbm, ⟨16, _⟩ => ⟨S32x3, .f32⟩
  | .hbm, ⟨17, _⟩ => ⟨S32x3, .f32⟩
  | .hbm, ⟨18, _⟩ => ⟨S32x3, .f32⟩
  | .hbm, ⟨19, _⟩ => ⟨S32x3, .f32⟩
  | .hbm, ⟨20, _⟩ => ⟨S32x3, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S32x3, .f32⟩
  | .hbm, ⟨25, _⟩ => ⟨S32x3, .f32⟩
  | .hbm, ⟨26, _⟩ => ⟨S_, .f32⟩
  | .hbm, ⟨27, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S32x3x512x512_S32x3_d2_3 : S32x3x512x512.ReducesTo [2, 3] S32x3
  h_S_ : 0 < S_.numel
  bcast_S_S32x3 : S_.BroadcastsInDim S32x3 (![] : Fin 0 → Fin S32x3.rank)
  reducesTo_S32x3_S_d0_1 : S32x3.ReducesTo [0, 1] S_

variable [Facts₀]

class Facts : Prop extends Facts₀ where

variable [Facts]
-- ==== Proof.Spec.lean ====
/-
  The mathematics both programs compute, stated once over plain shapes and the extended reals.

  For an array `x` of shape [32, 3, 512, 512], its plane sum at (b, ch) is the sum of the 512 × 512 entries
  `x[b, ch, ·, ·]`. The reference takes it in one reduction over the last two axes. The kernel splits the rows of a
  plane into four tiles of 128 rows, sums each tile lane by lane and then row by row, and adds the four tile sums to a
  zero accumulator in order. Addition of extended reals is commutative and associative, so the two agree with no
  finiteness assumption. The mean of the squared differences divides by 262144 = 2^18 in the reference and multiplies
  by the float 2^-18 in the kernel: the same number on every extended real.
-/
import Idealize.ShloMosaic.PureOps.Ideal.Laws
import Idealize.ShloMosaic.Lib.ValueIdx

noncomputable section

namespace Cert.FocalSpec

open Idealize.ShloMosaic Idealize.ShloMosaic.ValueIdx

/-- The whole arrays, the per-plane results, one tile of eight batches and 128 rows, and its two reductions. -/
abbrev SA : Shape := ⟨4, ![32, 3, 512, 512]⟩
abbrev SB : Shape := ⟨2, ![32, 3]⟩
abbrev SK : Shape := ⟨4, ![8, 3, 128, 512]⟩
abbrev SKr : Shape := ⟨3, ![8, 3, 128]⟩
abbrev SO : Shape := ⟨2, ![8, 3]⟩
abbrev S0 : Shape := ⟨0, ![]⟩

/-- The sum of plane (b, ch) of a whole array. -/
def planeSum (x : SA.Idx → EReal) (b : Fin 32) (ch : Fin 3) : EReal :=
  ∑ h : Fin 512, ∑ w : Fin 512, x (ix4 b ch h w)

/-- The sum of the 128 × 512 entries of a tile at (b, ch). -/
def blockSum (v : SK.Idx → EReal) (b : Fin 8) (ch : Fin 3) : EReal :=
  ∑ h : Fin 128, ∑ w : Fin 512, v (ix4 b ch h w)

/-! ## The reference's reduction over the last two axes -/

/-- Dropping the last two coordinates of (b, ch, h, w) leaves (b, ch). -/
theorem drop_ix4 (h' : SA.ReducesTo [2, 3] SB) (b : Fin 32) (ch : Fin 3) (h w : Fin 512) :
    h'.drop (ix4 b ch h w) = ix2 b ch := by
  funext a
  match a with
  | ⟨0, _⟩ => exact Fin.ext (h'.drop_apply_val_of_eq (ix4 b ch h w) 0 0)
  | ⟨1, _⟩ => exact Fin.ext (h'.drop_apply_val_of_eq (ix4 b ch h w) 1 1)

/-- An index that drops to (b, ch) is (b, ch, its row, its lane). -/
theorem eq_ix4_of_drop (h' : SA.ReducesTo [2, 3] SB) (b : Fin 32) (ch : Fin 3) (i : SA.Idx)
    (hd : h'.drop i = ix2 b ch) : i = ix4 b ch (i 2 : Fin 512) (i 3 : Fin 512) := by
  have h0 : ((i 0 : Fin 32) : ℕ) = b :=
    (h'.drop_apply_val_of_eq i 0 0).symm.trans (congrArg (fun j : SB.Idx => ((j 0 : Fin 32) : ℕ)) hd)
  have h1 : ((i 1 : Fin 3) : ℕ) = ch :=
    (h'.drop_apply_val_of_eq i 1 1).symm.trans (congrArg (fun j : SB.Idx => ((j 1 : Fin 3) : ℕ)) hd)
  funext a
  match a with
  | ⟨0, _⟩ => exact Fin.ext h0
  | ⟨1, _⟩ => exact Fin.ext h1
  | ⟨2, _⟩ => rfl
  | ⟨3, _⟩ => rfl

/-- The host's sum over the last two axes, read at (b, ch): the initial value plus the plane sum. -/
theorem hostReduce_plane (h' : SA.ReducesTo [2, 3] SB) (x : SA.Idx → EReal) (init : EReal) (b : Fin 32) (ch : Fin 3) :
    Ideal.hostReduceAdd h' x init (ix2 b ch) = init + planeSum x b ch := by
  unfold Ideal.hostReduceAdd planeSum
  congr 1
  rw [← Finset.sum_product' Finset.univ Finset.univ (fun (h w : Fin 512) => x (ix4 b ch h w))]
  refine Finset.sum_bij' (fun i _ => ((i 2 : Fin 512), (i 3 : Fin 512))) (fun p _ => ix4 b ch p.1 p.2)
    (fun _ _ => Finset.mem_product.mpr ⟨Finset.mem_univ _, Finset.mem_univ _⟩)
    (fun p _ => Finset.mem_filter.mpr ⟨Finset.mem_univ _, drop_ix4 h' b ch p.1 p.2⟩)
    (fun i hi => (eq_ix4_of_drop h' b ch i (Finset.mem_filter.mp hi).2).symm)
    (fun p _ => rfl)
    (fun i hi => congrArg x (eq_ix4_of_drop h' b ch i (Finset.mem_filter.mp hi).2))

/-- The host's plane reduce from a zero initial value, read at (b, ch). -/
theorem hostPlaneSum (h' : SA.ReducesTo [2, 3] SB) (h0 : 0 < S0.numel) (x : FVec Ideal SA .f32) (b : Fin 32) (ch : Fin 3) :
    Host.reduceAdd (F := Ideal) x (constant (F := Ideal) S0 .f32 0x00000000#32) h' h0 (ix2 b ch) = planeSum x b ch := by
  show Ideal.hostReduceAdd h' x (Ideal.ofBits .f32 0x00000000#32) (ix2 b ch) = _
  rw [hostReduce_plane, Ideal.ofBits_zero_f32, zero_add]

/-! ## The kernel's two lane reductions of a tile -/

/-- Summing a tile over its lanes and then over its rows gives, at (b, ch), the tile's sum there. -/
theorem laneSums_apply (v : FVec Ideal SK .f32) (h3 : SK.Reduces [3] SKr) (h2 : SKr.Reduces [2] SO)
    (hφ : FKind.Formats .f32) (hacc : (0x00000000#32 : BitVec 32) = FKind.add.neutral .f32 hφ) (b : Fin 8) (ch : Fin 3) :
    multiReduction .add [2] SO (multiReduction .add [3] SKr v 0x00000000#32 h3 hφ hacc) 0x00000000#32 h2 hφ hacc (ix2 b ch)
      = blockSum v b ch := by
  refine (Ideal.multiReduction_add_single _ _ h2 hφ hacc (ix2 b ch)).trans ?_
  refine Finset.sum_congr rfl fun h _ => ?_
  refine (Ideal.multiReduction_add_single v _ h3 hφ hacc _).trans ?_
  refine Finset.sum_congr rfl fun w _ => ?_
  exact congrArg v (funext fun a => match a with
    | ⟨0, _⟩ => Fin.ext rfl | ⟨1, _⟩ => Fin.ext rfl | ⟨2, _⟩ => Fin.ext rfl | ⟨3, _⟩ => Fin.ext rfl)

/-! ## Four tiles of 128 rows are the 512 rows -/

/-- A sum over four tiles of 128 rows, row `128 j + h` of the plane in tile `j`, is the sum over the 512 rows. -/
theorem sum_tiles (f : Fin 512 → EReal) :
    ∑ j : Fin 4, ∑ h : Fin 128, f ⟨128 * j.val + h.val, by have := j.isLt; have := h.isLt; omega⟩ = ∑ k : Fin 512, f k := by
  refine (Fintype.sum_prod_type' (fun (j : Fin 4) (h : Fin 128) =>
    f ⟨128 * j.val + h.val, by have := j.isLt; have := h.isLt; omega⟩)).symm.trans ?_
  refine Fintype.sum_equiv finProdFinEquiv (fun p : Fin 4 × Fin 128 =>
    f ⟨128 * p.1.val + p.2.val, by have := p.1.isLt; have := p.2.isLt; omega⟩) f (fun p => congrArg f (Fin.ext ?_))
  show 128 * p.1.val + p.2.val = p.2.val + 128 * p.1.val
  omega

/-- The accumulator after four additions to zero is the sum of the four terms. -/
theorem chain4 (z : EReal) (hz : z = 0) (s : Fin 4 → EReal) : z + s 0 + s 1 + s 2 + s 3 = ∑ j : Fin 4, s j := by
  rw [hz, zero_add, Fin.sum_univ_four]

/-- Four tile sums added in order to a zero accumulator are the plane sum: tile `j` of batch tile `i` holds, at
    (b, ch, h, w), entry (8 i + b, ch, 128 j + h, w) of the array `g`. -/
theorem four_tiles (z : EReal) (hz : z = 0) (g : SA.Idx → EReal) (i : Fin 4) (b : Fin 8) (ch : Fin 3)
    (T : Fin 4 → SK.Idx → EReal)
    (hT : ∀ (j : Fin 4) (h : Fin 128) (w : Fin 512), T j (ix4 b ch h w)
      = g (ix4 (⟨8 * i.val + b.val, by have := i.isLt; have := b.isLt; omega⟩ : Fin 32) ch
          (⟨128 * j.val + h.val, by have := j.isLt; have := h.isLt; omega⟩ : Fin 512) w)) :
    z + blockSum (T 0) b ch + blockSum (T 1) b ch + blockSum (T 2) b ch + blockSum (T 3) b ch
      = planeSum g (⟨8 * i.val + b.val, by have := i.isLt; have := b.isLt; omega⟩ : Fin 32) ch := by
  refine (chain4 z hz (fun j => blockSum (T j) b ch)).trans ?_
  have e : ∀ j : Fin 4, blockSum (T j) b ch
      = ∑ h : Fin 128, (fun k : Fin 512 => ∑ w : Fin 512,
          g (ix4 (⟨8 * i.val + b.val, by have := i.isLt; have := b.isLt; omega⟩ : Fin 32) ch k w))
          ⟨128 * j.val + h.val, by have := j.isLt; have := h.isLt; omega⟩ :=
    fun j => Finset.sum_congr rfl fun h _ => Finset.sum_congr rfl fun w _ => hT j h w
  have key := sum_tiles (fun k : Fin 512 => ∑ w : Fin 512,
    g (ix4 (⟨8 * i.val + b.val, by have := i.isLt; have := b.isLt; omega⟩ : Fin 32) ch k w))
  exact (Finset.sum_congr rfl fun j _ => e j).trans key

/-! ## The mean's scale -/

/-- The kernel's factor is the float 2^-18 and the reference's divisor the float 2^18. -/
theorem ofBits_inv_hw : Ideal.ofBits .f32 0x36800000#32 = ((1 / 262144 : ℝ) : EReal) := by
  simp [Ideal.ofBits, Ideal.ieee, -EReal.coe_mul]; norm_num

theorem ofBits_hw : Ideal.ofBits .f32 0x48800000#32 = ((262144 : ℝ) : EReal) := by
  simp [Ideal.ofBits, Ideal.ieee, -EReal.coe_mul]; norm_num

/-- Multiplying by 2^-18 is dividing by 2^18, on every extended real. -/
theorem mean_eq (a : EReal) :
    a * Ideal.ofBits .f32 0x36800000#32 = Ideal.div a (Ideal.ofBits .f32 0x48800000#32) := by
  rw [ofBits_inv_hw, ofBits_hw, Ideal.div_coe (by norm_num)]

/-! ## The three per-plane stages and the closing stage both programs share -/

/-- The plane sums of an array, as an array of shape [32, 3]. -/
def preOf (x : SA.Idx → EReal) : SB.Idx → EReal := fun j => planeSum x (j 0 : Fin 32) (j 1 : Fin 3)

/-- The squared difference of two arrays, entry by entry. -/
def sqdiff (x y : SA.Idx → EReal) : SA.Idx → EReal := fun i => (x i - y i) * (x i - y i)

/-- The mean over each plane of the squared difference: its plane sum divided by the float 2^18. -/
def mseOf (x y : SA.Idx → EReal) : SB.Idx → EReal :=
  fun j => Ideal.div (planeSum (sqdiff x y) (j 0 : Fin 32) (j 1 : Fin 3)) (Ideal.ofBits .f32 0x48800000#32)

/-- From the two plane sums `pre`, `gt` and the mean squared difference `mse`, each of shape [32, 3]: the weight
    `exp (2 · log1p (|pre − gt| / |gt + 1|))`, and the sum over all 96 entries of `mse · weight`. Both programs end
    with these same host operations, so it is carried as one function and never opened. -/
def tail {F : FTy → Type} [FloatOps F] (hb : S0.BroadcastsInDim SB (![] : Fin 0 → Fin SB.rank))
    (hr : SB.ReducesTo [0, 1] S0) (h0 : 0 < S0.numel) (pre gt mse : FVec F SB .f32) : FVec F S0 .f32 :=
  Host.reduceAdd (mulf mse (Host.exp (mulf (broadcastInDim SB ![] hb (constant (F := F) S0 .f32 0x40000000#32))
    (Host.log1p (Host.divf (Host.absf (subf pre gt))
      (Host.absf (addf gt (broadcastInDim SB ![] hb (constant (F := F) S0 .f32 0x3F800000#32)))))))))
    (constant (F := F) S0 .f32 0x00000000#32) hr h0

end Cert.FocalSpec

end
-- ==== Proof.RefValue.lean ====
/-
  The reference's result as the shared closing stage applied to the plane sums of its two arguments and to the
  mean, over each plane, of their squared difference.

  The reference reduces each argument over its last two axes from a zero initial value, which at (b, ch) is the plane
  sum; it squares the entrywise difference, reduces that the same way and divides by the float 2^18. The remaining
  operations are the closing stage.
-/
import proofs.«136009_j83459804495948_1_alg».proof.Proof.Gen.ReferenceIdeal.Run
import proofs.«136009_j83459804495948_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.FocalSpec

/-- The reduce of an argument over its last two axes is its array of plane sums. -/
theorem reduce_eq_preOf (x : FVec Ideal S32x3x512x512 .f32) :
    Host.reduceAdd (F := Ideal) x (constant (F := Ideal) S_ .f32 0x00000000#32) reducesTo_S32x3x512x512_S32x3_d2_3 h_S_
      = preOf x := by
  funext j
  obtain ⟨b, ch, rfl⟩ : ∃ (b : Fin 32) (ch : Fin 3), j = ix2 b ch := ⟨j 0, j 1, eq_ix2 j⟩
  exact hostPlaneSum reducesTo_S32x3x512x512_S32x3_d2_3 h_S_ x b ch

/-- The reduce of the squared difference divided by the broadcast constant is the array of plane means. -/
theorem mean_eq_mseOf (x y : FVec Ideal S32x3x512x512 .f32) :
    Host.divf (Host.reduceAdd (F := Ideal) (mulf (subf x y) (subf x y)) (constant (F := Ideal) S_ .f32 0x00000000#32)
        reducesTo_S32x3x512x512_S32x3_d2_3 h_S_)
      (broadcastInDim S32x3 ![] bcast_S_S32x3 (constant (F := Ideal) S_ .f32 0x48800000#32))
      = mseOf x y := by
  funext j
  obtain ⟨b, ch, rfl⟩ : ∃ (b : Fin 32) (ch : Fin 3), j = ix2 b ch := ⟨j 0, j 1, eq_ix2 j⟩
  show Ideal.div (Host.reduceAdd (F := Ideal) (sqdiff x y) (constant (F := Ideal) S_ .f32 0x00000000#32)
      reducesTo_S32x3x512x512_S32x3_d2_3 h_S_ (ix2 b ch)) (Ideal.ofBits .f32 0x48800000#32) = _
  rw [hostPlaneSum reducesTo_S32x3x512x512_S32x3_d2_3 h_S_ (sqdiff x y) b ch]
  rfl

/-- The reference's result term is the closing stage of the three per-plane stages. -/
theorem result_eq (x y : FVec Ideal S32x3x512x512 .f32) :
    Host.reduceAdd (mulf (Host.divf (Host.reduceAdd (mulf (subf x y) (subf x y)) (constant S_ .f32 0x00000000#32) reducesTo_S32x3x512x512_S32x3_d2_3 h_S_) (broadcastInDim S32x3 ![] bcast_S_S32x3 (constant S_ .f32 0x48800000#32))) (Host.exp (mulf (broadcastInDim S32x3 ![] bcast_S_S32x3 (constant S_ .f32 0x40000000#32)) (Host.log1p (Host.divf (Host.absf (subf (Host.reduceAdd x (constant S_ .f32 0x00000000#32) reducesTo_S32x3x512x512_S32x3_d2_3 h_S_) (Host.reduceAdd y (constant S_ .f32 0x00000000#32) reducesTo_S32x3x512x512_S32x3_d2_3 h_S_))) (Host.absf (addf (Host.reduceAdd y (constant S_ .f32 0x00000000#32) reducesTo_S32x3x512x512_S32x3_d2_3 h_S_) (broadcastInDim S32x3 ![] bcast_S_S32x3 (constant S_ .f32 0x3F800000#32))))))))) (constant S_ .f32 0x00000000#32) reducesTo_S32x3_S_d0_1 h_S_
      = tail (F := Ideal) bcast_S_S32x3 reducesTo_S32x3_S_d0_1 h_S_ (preOf x) (preOf y) (mseOf x y) := by
  rw [← reduce_eq_preOf x, ← reduce_eq_preOf y, ← mean_eq_mseOf x y]
  rfl

end Cert.ReferenceIdeal.RefValue

end
-- ==== Proof.KernelPieces.lean ====
/-
  What one run of the kernel body leaves in its three accumulators and, at the last spatial step, in its three
  output blocks — each as the body's own arithmetic applied to the two input tiles and to what the accumulators held
  before. At the first spatial step the accumulators are first reset to zero and the tile's sums are added to that;
  at every other step the sums are added to the carried contents; at the last step the two plain sums are copied out
  and the sum of squared differences is copied out scaled. Stated at any float instance.
-/
import proofs.«136009_j83459804495948_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords)
  (arg2 : Memref sig .tc .vmem S8x3x128x512 .f32) (harg2 : arg2.IsWhole)
  (arg3 : Memref sig .tc .vmem S8x3x128x512 .f32) (harg3 : arg3.IsWhole)
  (arg4 : Memref sig .tc .vmem S8x3 .f32) (harg4 : arg4.IsWhole)
  (arg5 : Memref sig .tc .vmem S8x3 .f32) (harg5 : arg5.IsWhole)
  (arg6 : Memref sig .tc .vmem S8x3 .f32) (harg6 : arg6.IsWhole)
  (arg7 : Memref sig .tc .vmem S8x3 .f32) (harg7 : arg7.IsWhole)
  (arg8 : Memref sig .tc .vmem S8x3 .f32) (harg8 : arg8.IsWhole)
  (arg9 : Memref sig .tc .vmem S8x3 .f32) (harg9 : arg9.IsWhole)
  (x0 x1 : Vec F S8x3x128x512 .f32) (xs0 xs1 xs2 : Vec F S8x3 .f32)

/-- The zero offsets of a whole-buffer access, as the constant function. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/- Every buffer here is accessed whole at offset zero. So a load of a whole buffer returns its contents, a load
   that follows a whole store returns what was stored, and the last whole store decides what the buffer ends with.
   The two tactics below say that once: `whole_loads` reads every load, `one_store` / `two_stores` pick the last of
   one or two whole stores first. -/
set_option hygiene false in
local macro "whole_loads" : tactic => `(tactic|
  simp only [View.readAt_eq_ld, View.readCov_unit_zero (S := S8x3) _ hz2, harg2.read_unread, harg3.read_unread,
    harg7.read_unread, harg8.read_unread, harg9.read_unread, View.ld_unit_zero (S := S8x3x128x512) hz4,
    View.ld_unit_zero (S := S8x3) hz2])
local macro "one_store" : tactic => `(tactic|
  (dsimp only; sl_unfold_words; rw [View.canon_unit_zero hz2]; whole_loads))
local macro "two_stores" : tactic => `(tactic|
  (dsimp only; sl_unfold_words; rw [View.canon_cons_unit_zero (S := S8x3) hz2]; whole_loads))

/-! ## The first spatial step: reset, then add -/

/-- After the first step the first accumulator holds zero plus the first tile's sums. -/
theorem first_sum0 (hc0 : cond0_0 i) (hc1 : ¬cond0_1 i) :
    sout0_A_0 c i arg2 harg2 arg3 harg3 arg4 harg4 arg5 harg5 arg6 harg6 arg7 harg7 arg8 harg8 arg9 harg9 hc0 hc1 x0 x1
      = k0_pay6 x0 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  two_stores

/-- After the first step the second accumulator holds zero plus the second tile's sums. -/
theorem first_sum1 (hc0 : cond0_0 i) (hc1 : ¬cond0_1 i) :
    sout0_A_1 c i arg2 harg2 arg3 harg3 arg4 harg4 arg5 harg5 arg6 harg6 arg7 harg7 arg8 harg8 arg9 harg9 hc0 hc1 x0 x1
      = k0_pay7 x1 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  two_stores

/-- After the first step the third accumulator holds zero plus the sums of the squared differences of the two tiles. -/
theorem first_sq (hc0 : cond0_0 i) (hc1 : ¬cond0_1 i) :
    sout0_A_2 c i arg2 harg2 arg3 harg3 arg4 harg4 arg5 harg5 arg6 harg6 arg7 harg7 arg8 harg8 arg9 harg9 hc0 hc1 x0 x1
      = k0_pay1 (k0_pay8 x0 x1 (k0_pay5 (F := F))) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  two_stores

/-! ## A middle step: add to what was carried -/

/-- A middle step adds the first tile's sums to the first accumulator. -/
theorem mid_sum0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 xs0 xs1 xs2
      = k0_pay6 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  one_store

/-- A middle step adds the second tile's sums to the second accumulator. -/
theorem mid_sum1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 xs0 xs1 xs2
      = k0_pay7 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  one_store

/-- A middle step adds the sums of squared differences to the third accumulator. -/
theorem mid_sq (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 xs0 xs1 xs2
      = k0_pay1 (k0_pay8 x0 x1 xs2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  one_store

/-! ## The last spatial step: add, then copy out -/

/-- The last step adds the first tile's sums to the first accumulator, -/
theorem last_sum0 (hc0 : ¬cond0_0 i) (hc1 : cond0_1 i) :
    sout0_C_0 c i arg2 harg2 arg3 harg3 arg4 harg4 arg5 harg5 arg6 harg6 arg7 harg7 arg8 harg8 arg9 harg9 hc0 hc1 x0 x1 xs0 xs1 xs2
      = k0_pay6 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  one_store

/-- the second tile's sums to the second, -/
theorem last_sum1 (hc0 : ¬cond0_0 i) (hc1 : cond0_1 i) :
    sout0_C_1 c i arg2 harg2 arg3 harg3 arg4 harg4 arg5 harg5 arg6 harg6 arg7 harg7 arg8 harg8 arg9 harg9 hc0 hc1 x0 x1 xs0 xs1 xs2
      = k0_pay7 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  one_store

/-- and the sums of squared differences to the third; -/
theorem last_sq (hc0 : ¬cond0_0 i) (hc1 : cond0_1 i) :
    sout0_C_2 c i arg2 harg2 arg3 harg3 arg4 harg4 arg5 harg5 arg6 harg6 arg7 harg7 arg8 harg8 arg9 harg9 hc0 hc1 x0 x1 xs0 xs1 xs2
      = k0_pay1 (k0_pay8 x0 x1 xs2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  one_store

/-- it then writes the first accumulator's new contents to the first output block, -/
theorem last_out0 (hc0 : ¬cond0_0 i) (hc1 : cond0_1 i) :
    out0_C_2 c i arg2 harg2 arg3 harg3 arg4 harg4 arg5 harg5 arg6 harg6 arg7 harg7 arg8 harg8 arg9 harg9 hc0 hc1 x0 x1 xs0 xs1 xs2
      = k0_pay6 x0 xs0 := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  one_store

/-- the second accumulator's to the second output block, -/
theorem last_out1 (hc0 : ¬cond0_0 i) (hc1 : cond0_1 i) :
    out0_C_3 c i arg2 harg2 arg3 harg3 arg4 harg4 arg5 harg5 arg6 harg6 arg7 harg7 arg8 harg8 arg9 harg9 hc0 hc1 x0 x1 xs0 xs1 xs2
      = k0_pay7 x1 xs1 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  one_store

/-- and the third accumulator's, scaled, to the third output block. -/
theorem last_out2 (hc0 : ¬cond0_0 i) (hc1 : cond0_1 i) :
    out0_C_4 c i arg2 harg2 arg3 harg3 arg4 harg4 arg5 harg5 arg6 harg6 arg7 harg7 arg8 harg8 arg9 harg9 hc0 hc1 x0 x1 xs0 xs1 xs2
      = k0_pay2 (k0_pay1 (k0_pay8 x0 x1 xs2)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  one_store

end Cert.KernelIdeal.Pieces

end
-- ==== Proof.KernelChain.lean ====
/-
  The three accumulators after each grid point, in closed form, and that the kernel's run leaves exactly these.

  The grid is walked in order, four spatial steps for each of four batch tiles. At a first spatial step (point
  number ≡ 0 mod 4) the accumulators restart from zero with that point's tiles added; at every other step the point's
  tiles are added to what the point before left. By induction on the point the carried contents the run records are
  this running value; at a last spatial step (≡ 3 mod 4) the output blocks receive the first two accumulators as they
  are and the third one scaled.
-/
import proofs.«136009_j83459804495948_1_alg».proof.Proof.KernelPieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The tile of the first and of the second argument that grid point `t` works on. -/
abbrev xtile (c : Dev nD) (t : Fin cfg0.N) : Vec F S8x3x128x512 .f32 := iblk m c 0 t
abbrev ytile (c : Dev nD) (t : Fin cfg0.N) : Vec F S8x3x128x512 .f32 := iblk m c 1 t

/-- The accumulators after a first spatial step: zero plus the point's tile sums. -/
def firstStep (c : Dev nD) (t : Fin cfg0.N) : Vec F S8x3 .f32 × Vec F S8x3 .f32 × Vec F S8x3 .f32 :=
  (k0_pay6 (xtile m c t) (k0_pay3 (F := F)), k0_pay7 (ytile m c t) (k0_pay4 (F := F)),
    k0_pay1 (k0_pay8 (xtile m c t) (ytile m c t) (k0_pay5 (F := F))))

/-- The accumulators after any other step: the point's tile sums added to the contents `a` carried in. -/
def nextStep (c : Dev nD) (t : Fin cfg0.N) (a : Vec F S8x3 .f32 × Vec F S8x3 .f32 × Vec F S8x3 .f32) :
    Vec F S8x3 .f32 × Vec F S8x3 .f32 × Vec F S8x3 .f32 :=
  (k0_pay6 (xtile m c t) a.1, k0_pay7 (ytile m c t) a.2.1, k0_pay1 (k0_pay8 (xtile m c t) (ytile m c t) a.2.2))

/-- The accumulators after point `n`. -/
def accs (c : Dev nD) : (n : ℕ) → n < cfg0.N → Vec F S8x3 .f32 × Vec F S8x3 .f32 × Vec F S8x3 .f32
  | 0, h => firstStep m c ⟨0, h⟩
  | n + 1, h =>
    if (n + 1) % 4 = 0 then firstStep m c ⟨n + 1, h⟩
    else nextStep m c ⟨n + 1, h⟩ (accs c n (Nat.lt_of_succ_lt h))

theorem accs_first (c : Dev nD) (n : ℕ) (h : n < cfg0.N) (h0 : n % 4 = 0) : accs m c n h = firstStep m c ⟨n, h⟩ := by
  cases n with
  | zero => rfl
  | succ n => simp only [accs, if_pos h0]

theorem accs_next (c : Dev nD) (n : ℕ) (h : n + 1 < cfg0.N) (h0 : ¬(n + 1) % 4 = 0) :
    accs m c (n + 1) h = nextStep m c ⟨n + 1, h⟩ (accs m c n (Nat.lt_of_succ_lt h)) := by
  simp only [accs, if_neg h0]

/-- What the run records as carried from point `n` is the running value. -/
theorem carried_eq (c : Dev nD) : ∀ (n : ℕ) (h : n < cfg0.N),
    ((outsAt0 m c n h).2.2.2.1, (outsAt0 m c n h).2.2.2.2.1, (outsAt0 m c n h).2.2.2.2.2) = accs m c n h
  | 0, h => by
    rw [outsAt0_A m c ⟨0, h⟩ (Nat.zero_mod _) (by dsimp only; omega), accs_first m c 0 h (Nat.zero_mod _)]
    dsimp only
    rw [first_sum0, first_sum1, first_sq]
    rfl
  | n + 1, h => by
    by_cases h0 : (n + 1) % 4 = 0
    · have h1 : ¬(n + 1) % 4 = 3 := by omega
      rw [outsAt0_A m c ⟨n + 1, h⟩ h0 h1, accs_first m c (n + 1) h h0]
      dsimp only
      rw [first_sum0, first_sum1, first_sq]
      rfl
    · rw [accs_next m c n h h0, ← carried_eq c n (Nat.lt_of_succ_lt h)]
      by_cases h1 : (n + 1) % 4 = 3
      · rw [outsAt0_C m c ⟨n + 1, h⟩ h0 h1]
        dsimp only
        rw [last_sum0, last_sum1, last_sq]
        rfl
      · rw [outsAt0_B m c ⟨n + 1, h⟩ h0 h1]
        dsimp only
        rw [mid_sum0, mid_sum1, mid_sq]
        rfl

/-- At a last spatial step the three output blocks receive the first two accumulators and the third one scaled. -/
theorem outs_last (c : Dev nD) (t : Fin cfg0.N) (h1 : t.val % 4 = 3) :
    (outsAt0 m c t.val t.isLt).1 = (accs m c t.val t.isLt).1
      ∧ (outsAt0 m c t.val t.isLt).2.1 = (accs m c t.val t.isLt).2.1
      ∧ (outsAt0 m c t.val t.isLt).2.2.1 = k0_pay2 (accs m c t.val t.isLt).2.2 := by
  obtain ⟨n, h⟩ := t
  cases n with
  | zero => exact absurd h1 (by dsimp only; omega)
  | succ n =>
    have h0 : ¬(n + 1) % 4 = 0 := by dsimp only at h1; omega
    dsimp only
    rw [accs_next m c n h h0, ← carried_eq m c n (Nat.lt_of_succ_lt h), outsAt0_C m c ⟨n + 1, h⟩ h0 h1]
    dsimp only
    rw [last_out0, last_out1, last_out2]
    exact ⟨rfl, rfl, rfl⟩

end Cert.KernelIdeal.Chain

end
-- ==== Proof.KernelSums.lean ====
/-
  At the ideal instance: what the three accumulators hold at a last spatial step, entry by entry.

  One step's update adds to an accumulator's entry (b, ch) the sum of the 128 × 512 entries of the point's tile at
  (b, ch). Point number 4 i + j of the grid works on batches 8 i … 8 i + 7 and rows 128 j … 128 j + 127, so the four
  steps of batch tile i add up the whole plane (8 i + b, ch): for the first argument, for the second, and for the
  squared difference of the two.
-/
import proofs.«136009_j83459804495948_1_alg».proof.Proof.KernelChain
import proofs.«136009_j83459804495948_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.KernelIdeal.Chain Cert.FocalSpec

/-! ## The body's arithmetic, read at an entry -/

section Payloads

variable {F : FTy → Type} [FloatOps F]

/-- The reset value of each accumulator is the zero vector. -/
theorem reset0_eq : k0_pay3 (F := F) = broadcast S8x3 (Scalar.ofBits .f32 0x00000000#32) := by
  unfold k0_pay3; exact shapeCast_self _ _
theorem reset1_eq : k0_pay4 (F := F) = broadcast S8x3 (Scalar.ofBits .f32 0x00000000#32) := by
  unfold k0_pay4; exact shapeCast_self _ _
theorem reset2_eq : k0_pay5 (F := F) = broadcast S8x3 (Scalar.ofBits .f32 0x00000000#32) := by
  unfold k0_pay5; exact shapeCast_self _ _

/-- An update is the old contents plus the tile reduced over its lanes and then over its rows. -/
theorem update0_eq (v : Vec F S8x3x128x512 .f32) (a : Vec F S8x3 .f32) :
    k0_pay6 v a = addf a (multiReduction .add [2] S8x3 (multiReduction .add [3] S8x3x128 v 0x00000000#32
      reduces_S8x3x128x512_S8x3x128 (.inl rfl) rfl) 0x00000000#32 reduces_S8x3x128_S8x3 (.inl rfl) rfl) := by
  unfold k0_pay6; exact shapeCast_self _ _
theorem update1_eq (v : Vec F S8x3x128x512 .f32) (a : Vec F S8x3 .f32) :
    k0_pay7 v a = addf a (multiReduction .add [2] S8x3 (multiReduction .add [3] S8x3x128 v 0x00000000#32
      reduces_S8x3x128x512_S8x3x128 (.inl rfl) rfl) 0x00000000#32 reduces_S8x3x128_S8x3 (.inl rfl) rfl) := by
  unfold k0_pay7; exact shapeCast_self _ _
theorem update2_eq (v v' : Vec F S8x3x128x512 .f32) (a : Vec F S8x3 .f32) :
    k0_pay1 (k0_pay8 v v' a) = addf a (multiReduction .add [2] S8x3 (multiReduction .add [3] S8x3x128
      (mulf (subf v v') (subf v v')) 0x00000000#32
      reduces_S8x3x128x512_S8x3x128 (.inl rfl) rfl) 0x00000000#32 reduces_S8x3x128_S8x3 (.inl rfl) rfl) := by
  unfold k0_pay1 k0_pay8; exact shapeCast_self _ _

end Payloads

theorem reset0_apply (b : Fin 8) (ch : Fin 3) : k0_pay3 (F := Ideal) (ix2 b ch) = 0 := by
  rw [reset0_eq]; exact Ideal.ofBits_zero_f32
theorem reset1_apply (b : Fin 8) (ch : Fin 3) : k0_pay4 (F := Ideal) (ix2 b ch) = 0 := by
  rw [reset1_eq]; exact Ideal.ofBits_zero_f32
theorem reset2_apply (b : Fin 8) (ch : Fin 3) : k0_pay5 (F := Ideal) (ix2 b ch) = 0 := by
  rw [reset2_eq]; exact Ideal.ofBits_zero_f32

theorem update0_apply (v : Vec Ideal S8x3x128x512 .f32) (a : Vec Ideal S8x3 .f32) (b : Fin 8) (ch : Fin 3) :
    k0_pay6 v a (ix2 b ch) = a (ix2 b ch) + blockSum v b ch := by
  rw [update0_eq]
  exact congrArg (a (ix2 b ch) + ·) (laneSums_apply v _ _ _ _ b ch)
theorem update1_apply (v : Vec Ideal S8x3x128x512 .f32) (a : Vec Ideal S8x3 .f32) (b : Fin 8) (ch : Fin 3) :
    k0_pay7 v a (ix2 b ch) = a (ix2 b ch) + blockSum v b ch := by
  rw [update1_eq]
  exact congrArg (a (ix2 b ch) + ·) (laneSums_apply v _ _ _ _ b ch)
theorem update2_apply (v v' : Vec Ideal S8x3x128x512 .f32) (a : Vec Ideal S8x3 .f32) (b : Fin 8) (ch : Fin 3) :
    k0_pay1 (k0_pay8 v v' a) (ix2 b ch)
      = a (ix2 b ch) + blockSum (mulf (subf v v') (subf v v') : FVec Ideal S8x3x128x512 .f32) b ch := by
  rw [update2_eq]
  exact congrArg (a (ix2 b ch) + ·)
    (laneSums_apply (mulf (subf v v') (subf v v') : FVec Ideal S8x3x128x512 .f32) _ _ _ _ b ch)

/-! ## The tiles, read through their windows -/

variable (m : (ℓ : Loc nD τ sig) → Buf (Elt Ideal) ℓ)

/-- The two argument arrays as the kernel finds them. -/
abbrev xarr (c : Dev nD) : FVec Ideal S32x3x512x512 .f32 := V m c main_arg0
abbrev yarr (c : Dev nD) : FVec Ideal S32x3x512x512 .f32 := V m c main_arg1

/-- Point `t` reads, of either argument, batch tile `t / 4` and row tile `t % 4`, all channels and all lanes. -/
theorem in_idx : ∀ t : Fin cfg0.N,
    win0_0.index t (0 : Fin 4) = t.val / 4 ∧ win0_0.index t (1 : Fin 4) = 0
      ∧ win0_0.index t (2 : Fin 4) = t.val % 4 ∧ win0_0.index t (3 : Fin 4) = 0
      ∧ win0_1.index t (0 : Fin 4) = t.val / 4 ∧ win0_1.index t (1 : Fin 4) = 0
      ∧ win0_1.index t (2 : Fin 4) = t.val % 4 ∧ win0_1.index t (3 : Fin 4) = 0 :=
  (by decide +kernel : ∀ t : Fin grid0.N, _)

/-- Entry (b, ch, h, w) of the first tile at point 4 i + j is entry (8 i + b, ch, 128 j + h, w) of the first argument. -/
theorem xtile_apply (c : Dev nD) (i j : Fin 4) (hp : 4 * i.val + j.val < cfg0.N) (b : Fin 8) (ch : Fin 3)
    (h : Fin 128) (w : Fin 512) :
    xtile m c ⟨4 * i.val + j.val, hp⟩ (ix4 b ch h w)
      = xarr m c (ix4 (⟨8 * i.val + b.val, by have := i.isLt; have := b.isLt; omega⟩ : Fin 32) ch
          (⟨128 * j.val + h.val, by have := j.isLt; have := h.isLt; omega⟩ : Fin 512) w) := by
  obtain ⟨e0, e1, e2, e3, -⟩ := in_idx ⟨4 * i.val + j.val, hp⟩
  have hi := i.isLt; have hj := j.isLt
  unfold xtile iblk
  rw [View.read_apply]
  show V m c main_arg0 _ = V m c main_arg0 _
  congr 1
  funext a
  apply Fin.ext
  match a with
  | ⟨0, _⟩ => show win0_0.index ⟨4 * i.val + j.val, hp⟩ (0 : Fin 4) * 8 + 1 * b.val = 8 * i.val + b.val; rw [e0]; dsimp only; omega
  | ⟨1, _⟩ => show win0_0.index ⟨4 * i.val + j.val, hp⟩ (1 : Fin 4) * 3 + 1 * ch.val = ch.val; rw [e1]; omega
  | ⟨2, _⟩ => show win0_0.index ⟨4 * i.val + j.val, hp⟩ (2 : Fin 4) * 128 + 1 * h.val = 128 * j.val + h.val; rw [e2]; dsimp only; omega
  | ⟨3, _⟩ => show win0_0.index ⟨4 * i.val + j.val, hp⟩ (3 : Fin 4) * 512 + 1 * w.val = w.val; rw [e3]; omega

/-- The same for the second tile and the second argument. -/
theorem ytile_apply (c : Dev nD) (i j : Fin 4) (hp : 4 * i.val + j.val < cfg0.N) (b : Fin 8) (ch : Fin 3)
    (h : Fin 128) (w : Fin 512) :
    ytile m c ⟨4 * i.val + j.val, hp⟩ (ix4 b ch h w)
      = yarr m c (ix4 (⟨8 * i.val + b.val, by have := i.isLt; have := b.isLt; omega⟩ : Fin 32) ch
          (⟨128 * j.val + h.val, by have := j.isLt; have := h.isLt; omega⟩ : Fin 512) w) := by
  obtain ⟨-, -, -, -, e0, e1, e2, e3⟩ := in_idx ⟨4 * i.val + j.val, hp⟩
  have hi := i.isLt; have hj := j.isLt
  unfold ytile iblk
  rw [View.read_apply]
  show V m c main_arg1 _ = V m c main_arg1 _
  congr 1
  funext a
  apply Fin.ext
  match a with
  | ⟨0, _⟩ => show win0_1.index ⟨4 * i.val + j.val, hp⟩ (0 : Fin 4) * 8 + 1 * b.val = 8 * i.val + b.val; rw [e0]; dsimp only; omega
  | ⟨1, _⟩ => show win0_1.index ⟨4 * i.val + j.val, hp⟩ (1 : Fin 4) * 3 + 1 * ch.val = ch.val; rw [e1]; omega
  | ⟨2, _⟩ => show win0_1.index ⟨4 * i.val + j.val, hp⟩ (2 : Fin 4) * 128 + 1 * h.val = 128 * j.val + h.val; rw [e2]; dsimp only; omega
  | ⟨3, _⟩ => show win0_1.index ⟨4 * i.val + j.val, hp⟩ (3 : Fin 4) * 512 + 1 * w.val = w.val; rw [e3]; omega

/-! ## The accumulators at a last spatial step -/

/-- The four steps of batch tile `i`, one after the other. -/
theorem accs_last {F : FTy → Type} [FloatOps F] (m : (ℓ : Loc nD τ sig) → Buf (Elt F) ℓ) (c : Dev nD) (i : ℕ)
    (h3 : 4 * i + 3 < cfg0.N) :
    accs m c (4 * i + 3) h3
      = nextStep m c ⟨4 * i + 3, h3⟩ (nextStep m c ⟨4 * i + 2, by omega⟩ (nextStep m c ⟨4 * i + 1, by omega⟩
          (firstStep m c ⟨4 * i, by omega⟩))) :=
  (accs_next m c (4 * i + 2) h3 (by omega)).trans (congrArg (nextStep m c _)
    ((accs_next m c (4 * i + 1) (by omega) (by omega)).trans (congrArg (nextStep m c _)
      ((accs_next m c (4 * i) (by omega) (by omega)).trans (congrArg (nextStep m c _)
        (accs_first m c (4 * i) (by omega) (by omega)))))))

/-- After the last step of batch tile `i` the first accumulator holds, at (b, ch), the sum of plane (8 i + b, ch)
    of the first argument. -/
theorem sum0_last (c : Dev nD) (i : Fin 4) (h3 : 4 * i.val + 3 < cfg0.N) (b : Fin 8) (ch : Fin 3) :
    (accs m c (4 * i.val + 3) h3).1 (ix2 b ch)
      = planeSum (xarr m c) (⟨8 * i.val + b.val, by have := i.isLt; have := b.isLt; omega⟩ : Fin 32) ch := by
  rw [accs_last m c i.val h3]
  dsimp only [nextStep, firstStep]
  rw [update0_apply, update0_apply, update0_apply, update0_apply, reset0_apply]
  exact four_tiles 0 rfl (xarr m c) i b ch
    (fun j => xtile m c ⟨4 * i.val + j.val, by have := j.isLt; omega⟩)
    (fun j h w => xtile_apply m c i j _ b ch h w)

/-- The second accumulator likewise, of the second argument. -/
theorem sum1_last (c : Dev nD) (i : Fin 4) (h3 : 4 * i.val + 3 < cfg0.N) (b : Fin 8) (ch : Fin 3) :
    (accs m c (4 * i.val + 3) h3).2.1 (ix2 b ch)
      = planeSum (yarr m c) (⟨8 * i.val + b.val, by have := i.isLt; have := b.isLt; omega⟩ : Fin 32) ch := by
  rw [accs_last m c i.val h3]
  dsimp only [nextStep, firstStep]
  rw [update1_apply, update1_apply, update1_apply, update1_apply, reset1_apply]
  exact four_tiles 0 rfl (yarr m c) i b ch
    (fun j => ytile m c ⟨4 * i.val + j.val, by have := j.isLt; omega⟩)
    (fun j h w => ytile_apply m c i j _ b ch h w)

/-- The third accumulator holds the plane sum of the squared difference of the two arguments. -/
theorem sq_last (c : Dev nD) (i : Fin 4) (h3 : 4 * i.val + 3 < cfg0.N) (b : Fin 8) (ch : Fin 3) :
    (accs m c (4 * i.val + 3) h3).2.2 (ix2 b ch)
      = planeSum (sqdiff (xarr m c) (yarr m c))
          (⟨8 * i.val + b.val, by have := i.isLt; have := b.isLt; omega⟩ : Fin 32) ch := by
  rw [accs_last m c i.val h3]
  dsimp only [nextStep, firstStep]
  rw [update2_apply, update2_apply, update2_apply, update2_apply, reset2_apply]
  exact four_tiles 0 rfl (sqdiff (xarr m c) (yarr m c)) i b ch
    (fun j => (mulf (subf (xtile m c ⟨4 * i.val + j.val, by have := j.isLt; omega⟩)
        (ytile m c ⟨4 * i.val + j.val, by have := j.isLt; omega⟩))
      (subf (xtile m c ⟨4 * i.val + j.val, by have := j.isLt; omega⟩)
        (ytile m c ⟨4 * i.val + j.val, by have := j.isLt; omega⟩)) : FVec Ideal S8x3x128x512 .f32))
    (fun j h w => by
      show (xtile m c _ (ix4 b ch h w) - ytile m c _ (ix4 b ch h w))
        * (xtile m c _ (ix4 b ch h w) - ytile m c _ (ix4 b ch h w)) = _
      rw [xtile_apply m c i j _ b ch h w, ytile_apply m c i j _ b ch h w]
      rfl)

end Cert.KernelIdeal.Sums

end
-- ==== Proof.KernelResult.lean ====
/-
  At the ideal instance: what the three result arrays of the kernel region end holding, and the program's result.

  Only the last spatial step of each batch tile writes back, to rows 8 i … 8 i + 7 of each result array; the four
  write-backs cover the 32 rows. What is written is the accumulators' contents there: the plane sums of the first
  argument, of the second, and the plane sum of the squared difference scaled by 2^-18, which is its mean. The host
  operations after the region are the closing stage applied to these three arrays.
-/
import proofs.«136009_j83459804495948_1_alg».proof.Proof.KernelSums
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Chain Cert.KernelIdeal.Sums Cert.FocalSpec

variable (m : (ℓ : Loc nD τ sig) → Buf (Elt Ideal) ℓ) (ρ : Dev nD → PrngReg)

/-- Point `t` writes, of each result array, the block of rows of batch tile `t / 4`. -/
theorem out_idx : ∀ t : Fin cfg0.N,
    win0_2.index t (0 : Fin 2) = t.val / 4 ∧ win0_2.index t (1 : Fin 2) = 0
      ∧ win0_3.index t (0 : Fin 2) = t.val / 4 ∧ win0_3.index t (1 : Fin 2) = 0
      ∧ win0_4.index t (0 : Fin 2) = t.val / 4 ∧ win0_4.index t (1 : Fin 2) = 0 :=
  (by decide +kernel : ∀ t : Fin grid0.N, _)

/-- The accumulators after a last spatial step `t`, at (b, ch): the plane sums at batch 8 (t / 4) + b. -/
theorem at_last (c : Dev nD) (t : Fin cfg0.N) (h3 : t.val % 4 = 3) (b : Fin 8) (ch : Fin 3) :
    (accs m c t.val t.isLt).1 (ix2 b ch)
        = planeSum (xarr m c) (⟨8 * (t.val / 4) + b.val, by have := t.isLt; have : cfg0.N = 16 := N_0; have := b.isLt; omega⟩ : Fin 32) ch
      ∧ (accs m c t.val t.isLt).2.1 (ix2 b ch)
        = planeSum (yarr m c) (⟨8 * (t.val / 4) + b.val, by have := t.isLt; have : cfg0.N = 16 := N_0; have := b.isLt; omega⟩ : Fin 32) ch
      ∧ (accs m c t.val t.isLt).2.2 (ix2 b ch)
        = planeSum (sqdiff (xarr m c) (yarr m c))
            (⟨8 * (t.val / 4) + b.val, by have := t.isLt; have : cfg0.N = 16 := N_0; have := b.isLt; omega⟩ : Fin 32) ch := by
  have hN : cfg0.N = 16 := N_0
  obtain ⟨n, hn⟩ := t
  dsimp only at h3 ⊢
  obtain ⟨i, rfl⟩ : ∃ i, n = 4 * i + 3 := ⟨n / 4, by omega⟩
  have hi : i < 4 := by omega
  have hq : (4 * i + 3) / 4 = i := by omega
  refine ⟨(sum0_last m c ⟨i, hi⟩ hn b ch).trans ?_, (sum1_last m c ⟨i, hi⟩ hn b ch).trans ?_,
    (sq_last m c ⟨i, hi⟩ hn b ch).trans ?_⟩
  · exact congrArg (fun B => planeSum (xarr m c) B ch) (Fin.ext (by dsimp only; omega))
  · exact congrArg (fun B => planeSum (yarr m c) B ch) (Fin.ext (by dsimp only; omega))
  · exact congrArg (fun B => planeSum (sqdiff (xarr m c) (yarr m c)) B ch) (Fin.ext (by dsimp only; omega))

/-! ## The first result array: the plane sums of the first argument -/

/-- What a last spatial step writes back to the first result array is the block of plane sums of its rows. -/
theorem flushed_pre (c : Dev nD) (t : Fin cfg0.N) (hf : (cfg0.win 2).flush t = true) :
    (dats m 0 c).flushed 2 t = ((cfg0.win 2).blk t).view.read (Elt Ideal) (preOf (xarr m c)) := by
  have h3 : t.val % 4 = 3 := (flush0_2 t).mp hf
  obtain ⟨e0, e1, -⟩ := out_idx t
  show (cfg0.win 2).cut (grid0.coords t) ((dats m 0 c).after 2 t) = _
  rw [after0_2, (outs_last m c t h3).1]
  funext j
  have hj0 : (j 0).val < 8 := (j 0).isLt
  have hj1 : (j 1).val < 3 := (j 1).isLt
  show (accs m c t.val t.isLt).1 j = preOf (xarr m c) (((cfg0.win 2).blk t).view.emb j)
  refine (congrArg (accs m c t.val t.isLt).1 (eq_ix2 (n0 := 8) (n1 := 3) j)).trans ?_
  refine ((at_last m c t h3 (j 0) (j 1)).1).trans ?_
  unfold preOf
  refine congr (congrArg (planeSum (xarr m c)) (Fin.ext ?_)) (Fin.ext ?_)
  · show 8 * (t.val / 4) + (j 0).val = win0_2.index t (0 : Fin 2) * 8 + 1 * (j 0).val
    rw [e0]; omega
  · show (j 1).val = win0_2.index t (1 : Fin 2) * 3 + 1 * (j 1).val
    rw [e1]; omega

/-- A row of the first result array lies in the block a point writes iff the point's block index fits. -/
theorem mem_blk_pre (t : Fin cfg0.N) (I : S32x3.Idx) :
    I ∈ ((cfg0.win 2).blk t).view.set ↔ ∀ a : Fin 2, win0_2.index t a * S8x3.size a ≤ (I a).val
      ∧ (I a).val < win0_2.index t a * S8x3.size a + S8x3.size a := by
  show I ∈ ((View.whole main_v0_0).slice (win0_2.rect t)).set ↔ _
  rw [View.set_slice_whole, Rect.mem_set_unit]
  exact Iff.rfl

/-- Every entry of the first result array is written by the last step of its batch tile. -/
theorem cover_pre (I : S32x3.Idx) : ∃ t : Fin cfg0.N, (cfg0.win 2).flush t = true ∧ I ∈ ((cfg0.win 2).blk t).view.set := by
  have hI0 : (I 0).val < 32 := (I 0).isLt
  have hI1 : (I 1).val < 3 := (I 1).isLt
  have hN : cfg0.N = 16 := N_0
  have ht : 4 * ((I 0).val / 8) + 3 < cfg0.N := by omega
  obtain ⟨e0, e1, -⟩ := out_idx ⟨4 * ((I 0).val / 8) + 3, ht⟩
  refine ⟨⟨4 * ((I 0).val / 8) + 3, ht⟩, (flush0_2 _).mpr (by dsimp only; omega), ?_⟩
  rw [mem_blk_pre]
  intro a
  match a with
  | ⟨0, _⟩ =>
    show win0_2.index ⟨4 * ((I 0).val / 8) + 3, ht⟩ (0 : Fin 2) * 8 ≤ (I 0).val
      ∧ (I 0).val < win0_2.index ⟨4 * ((I 0).val / 8) + 3, ht⟩ (0 : Fin 2) * 8 + 8
    rw [e0]; dsimp only; omega
  | ⟨1, _⟩ =>
    show win0_2.index ⟨4 * ((I 0).val / 8) + 3, ht⟩ (1 : Fin 2) * 3 ≤ (I 1).val
      ∧ (I 1).val < win0_2.index ⟨4 * ((I 0).val / 8) + 3, ht⟩ (1 : Fin 2) * 3 + 3
    rw [e1]; omega

/-- The first result array ends holding the plane sums of the first argument. -/
theorem final_pre (c : Dev nD) : (dats m 0 c).arrAt 2 cfg0.N = preOf (xarr m c) :=
  (dats m 0 c).arrAt_eq_of_cover 2 (preOf (xarr m c)) (flushed_pre m c) (cover_pre)

/-! ## The second result array: the plane sums of the second argument -/

theorem flushed_gt (c : Dev nD) (t : Fin cfg0.N) (hf : (cfg0.win 3).flush t = true) :
    (dats m 0 c).flushed 3 t = ((cfg0.win 3).blk t).view.read (Elt Ideal) (preOf (yarr m c)) := by
  have h3 : t.val % 4 = 3 := (flush0_3 t).mp hf
  obtain ⟨-, -, e0, e1, -⟩ := out_idx t
  show (cfg0.win 3).cut (grid0.coords t) ((dats m 0 c).after 3 t) = _
  rw [after0_3, (outs_last m c t h3).2.1]
  funext j
  have hj0 : (j 0).val < 8 := (j 0).isLt
  have hj1 : (j 1).val < 3 := (j 1).isLt
  show (accs m c t.val t.isLt).2.1 j = preOf (yarr m c) (((cfg0.win 3).blk t).view.emb j)
  refine (congrArg (accs m c t.val t.isLt).2.1 (eq_ix2 (n0 := 8) (n1 := 3) j)).trans ?_
  refine ((at_last m c t h3 (j 0) (j 1)).2.1).trans ?_
  unfold preOf
  refine congr (congrArg (planeSum (yarr m c)) (Fin.ext ?_)) (Fin.ext ?_)
  · show 8 * (t.val / 4) + (j 0).val = win0_3.index t (0 : Fin 2) * 8 + 1 * (j 0).val
    rw [e0]; omega
  · show (j 1).val = win0_3.index t (1 : Fin 2) * 3 + 1 * (j 1).val
    rw [e1]; omega

theorem mem_blk_gt (t : Fin cfg0.N) (I : S32x3.Idx) :
    I ∈ ((cfg0.win 3).blk t).view.set ↔ ∀ a : Fin 2, win0_3.index t a * S8x3.size a ≤ (I a).val
      ∧ (I a).val < win0_3.index t a * S8x3.size a + S8x3.size a := by
  show I ∈ ((View.whole main_v0_1).slice (win0_3.rect t)).set ↔ _
  rw [View.set_slice_whole, Rect.mem_set_unit]
  exact Iff.rfl

theorem cover_gt (I : S32x3.Idx) : ∃ t : Fin cfg0.N, (cfg0.win 3).flush t = true ∧ I ∈ ((cfg0.win 3).blk t).view.set := by
  have hI0 : (I 0).val < 32 := (I 0).isLt
  have hI1 : (I 1).val < 3 := (I 1).isLt
  have hN : cfg0.N = 16 := N_0
  have ht : 4 * ((I 0).val / 8) + 3 < cfg0.N := by omega
  obtain ⟨-, -, e0, e1, -⟩ := out_idx ⟨4 * ((I 0).val / 8) + 3, ht⟩
  refine ⟨⟨4 * ((I 0).val / 8) + 3, ht⟩, (flush0_3 _).mpr (by dsimp only; omega), ?_⟩
  rw [mem_blk_gt]
  intro a
  match a with
  | ⟨0, _⟩ =>
    show win0_3.index ⟨4 * ((I 0).val / 8) + 3, ht⟩ (0 : Fin 2) * 8 ≤ (I 0).val
      ∧ (I 0).val < win0_3.index ⟨4 * ((I 0).val / 8) + 3, ht⟩ (0 : Fin 2) * 8 + 8
    rw [e0]; dsimp only; omega
  | ⟨1, _⟩ =>
    show win0_3.index ⟨4 * ((I 0).val / 8) + 3, ht⟩ (1 : Fin 2) * 3 ≤ (I 1).val
      ∧ (I 1).val < win0_3.index ⟨4 * ((I 0).val / 8) + 3, ht⟩ (1 : Fin 2) * 3 + 3
    rw [e1]; omega

/-- The second result array ends holding the plane sums of the second argument. -/
theorem final_gt (c : Dev nD) : (dats m 0 c).arrAt 3 cfg0.N = preOf (yarr m c) :=
  (dats m 0 c).arrAt_eq_of_cover 3 (preOf (yarr m c)) (flushed_gt m c) (cover_gt)

/-! ## The third result array: the plane means of the squared difference -/

theorem flushed_mse (c : Dev nD) (t : Fin cfg0.N) (hf : (cfg0.win 4).flush t = true) :
    (dats m 0 c).flushed 4 t = ((cfg0.win 4).blk t).view.read (Elt Ideal) (mseOf (xarr m c) (yarr m c)) := by
  have h3 : t.val % 4 = 3 := (flush0_4 t).mp hf
  obtain ⟨-, -, -, -, e0, e1⟩ := out_idx t
  show (cfg0.win 4).cut (grid0.coords t) ((dats m 0 c).after 4 t) = _
  rw [after0_4, (outs_last m c t h3).2.2]
  funext j
  have hj0 : (j 0).val < 8 := (j 0).isLt
  have hj1 : (j 1).val < 3 := (j 1).isLt
  show (accs m c t.val t.isLt).2.2 j * Ideal.ofBits .f32 0x36800000#32
    = mseOf (xarr m c) (yarr m c) (((cfg0.win 4).blk t).view.emb j)
  refine (congrArg (· * Ideal.ofBits .f32 0x36800000#32)
    ((congrArg (accs m c t.val t.isLt).2.2 (eq_ix2 (n0 := 8) (n1 := 3) j)).trans
      (at_last m c t h3 (j 0) (j 1)).2.2)).trans ?_
  refine (mean_eq _).trans ?_
  unfold mseOf
  refine congrArg (fun s => Ideal.div s (Ideal.ofBits .f32 0x48800000#32)) ?_
  refine congr (congrArg (planeSum (sqdiff (xarr m c) (yarr m c))) (Fin.ext ?_)) (Fin.ext ?_)
  · show 8 * (t.val / 4) + (j 0).val = win0_4.index t (0 : Fin 2) * 8 + 1 * (j 0).val
    rw [e0]; omega
  · show (j 1).val = win0_4.index t (1 : Fin 2) * 3 + 1 * (j 1).val
    rw [e1]; omega

theorem mem_blk_mse (t : Fin cfg0.N) (I : S32x3.Idx) :
    I ∈ ((cfg0.win 4).blk t).view.set ↔ ∀ a : Fin 2, win0_4.index t a * S8x3.size a ≤ (I a).val
      ∧ (I a).val < win0_4.index t a * S8x3.size a + S8x3.size a := by
  show I ∈ ((View.whole main_v0_2).slice (win0_4.rect t)).set ↔ _
  rw [View.set_slice_whole, Rect.mem_set_unit]
  exact Iff.rfl

theorem cover_mse (I : S32x3.Idx) : ∃ t : Fin cfg0.N, (cfg0.win 4).flush t = true ∧ I ∈ ((cfg0.win 4).blk t).view.set := by
  have hI0 : (I 0).val < 32 := (I 0).isLt
  have hI1 : (I 1).val < 3 := (I 1).isLt
  have hN : cfg0.N = 16 := N_0
  have ht : 4 * ((I 0).val / 8) + 3 < cfg0.N := by omega
  obtain ⟨-, -, -, -, e0, e1⟩ := out_idx ⟨4 * ((I 0).val / 8) + 3, ht⟩
  refine ⟨⟨4 * ((I 0).val / 8) + 3, ht⟩, (flush0_4 _).mpr (by dsimp only; omega), ?_⟩
  rw [mem_blk_mse]
  intro a
  match a with
  | ⟨0, _⟩ =>
    show win0_4.index ⟨4 * ((I 0).val / 8) + 3, ht⟩ (0 : Fin 2) * 8 ≤ (I 0).val
      ∧ (I 0).val < win0_4.index ⟨4 * ((I 0).val / 8) + 3, ht⟩ (0 : Fin 2) * 8 + 8
    rw [e0]; dsimp only; omega
  | ⟨1, _⟩ =>
    show win0_4.index ⟨4 * ((I 0).val / 8) + 3, ht⟩ (1 : Fin 2) * 3 ≤ (I 1).val
      ∧ (I 1).val < win0_4.index ⟨4 * ((I 0).val / 8) + 3, ht⟩ (1 : Fin 2) * 3 + 3
    rw [e1]; omega

/-- The third result array ends holding the plane means of the squared difference of the two arguments. -/
theorem final_mse (c : Dev nD) : (dats m 0 c).arrAt 4 cfg0.N = mseOf (xarr m c) (yarr m c) :=
  (dats m 0 c).arrAt_eq_of_cover 4 (mseOf (xarr m c) (yarr m c)) (flushed_mse m c) (cover_mse)

/-! ## The program's result -/

/-- The host operations after the region compute the closing stage of the three result arrays. -/
theorem result_eq (c : Dev nD) :
    Pipeline.afterTail₀ cfgs (dats m) 0 (V0 m) [hostOps1] c main_v12
      = tail (F := Ideal) bcast_S_S32x3 reducesTo_S32x3_S_d0_1 h_S_ (preOf (xarr m c)) (preOf (yarr m c))
          (mseOf (xarr m c) (yarr m c)) := by
  unfold Pipeline.afterTail₀
  show StableHlo.after hostOps1 _ (Proc.devRef .tc main_v12) = _
  after_results
  have hpre : Pipeline.withArrays (cfgs 0).spec c (V0 m c) (fun w => (dats m 0 c).arrAt w (cfgs 0).N)
      (Proc.devRef .tc main_v0_0) = preOf (xarr m c) :=
    (Pipeline.withArrays_arr spec0 launch0.win.arr_inj c _ _ 2).trans (final_pre m c)
  have hgt : Pipeline.withArrays (cfgs 0).spec c (V0 m c) (fun w => (dats m 0 c).arrAt w (cfgs 0).N)
      (Proc.devRef .tc main_v0_1) = preOf (yarr m c) :=
    (Pipeline.withArrays_arr spec0 launch0.win.arr_inj c _ _ 3).trans (final_gt m c)
  have hmse : Pipeline.withArrays (cfgs 0).spec c (V0 m c) (fun w => (dats m 0 c).arrAt w (cfgs 0).N)
      (Proc.devRef .tc main_v0_2) = mseOf (xarr m c) (yarr m c) :=
    (Pipeline.withArrays_arr spec0 launch0.win.arr_inj c _ _ 4).trans (final_mse m c)
  rw [hpre, hgt, hmse]
  rfl

/-- The kernel program's run, read: the result at the closing stage of the plane sums and plane means of the two
    arguments' launch contents, the arguments unchanged. -/
theorem run : θ_run defs (onTc (τ := τ) (main (F := Ideal))) ⟨m, fun _ => 0, ρ⟩ fun r => ∀ c : Dev nD,
      r.2.mem ((c.tc : Thread nD τ).loc main_v12)
        = tail (F := Ideal) bcast_S_S32x3 reducesTo_S32x3_S_d0_1 h_S_
            (preOf (m ((c.tc : Thread nD τ).loc main_arg0))) (preOf (m ((c.tc : Thread nD τ).loc main_arg1)))
            (mseOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.lean ====
/-
  The five claims about the kernel, its idealization and the reference.

  The kernel streams two arrays of shape [32, 3, 512, 512] once, keeping per (batch, channel) three running sums —
  of the first array, of the second, and of their squared difference — over four tiles of 128 rows, and hands the
  plane sums and the plane mean of the squared difference to a short host stage: the weight
  exp (2 · log1p (|pre − gt| / |gt + 1|)) and the total of mean · weight. The reference computes the same three
  per-plane arrays by whole reductions and applies the same host stage.

  Over the extended reals the two programs agree: a plane sum does not depend on how its terms are grouped or
  ordered, and multiplying by the float 2^-18 is dividing by 2^18. No finiteness of the inputs is used. The frames of
  the two kernel programs are the generated ones; the reference's frame is its generated run with the result dropped;
  the idealization rewrote nothing.
-/
import proofs.«136009_j83459804495948_1_alg».proof.Defs
import proofs.«136009_j83459804495948_1_alg».proof.Proof.Gen.Kernel
import proofs.«136009_j83459804495948_1_alg».proof.Proof.Gen.Kernel.Skeleton
import proofs.«136009_j83459804495948_1_alg».proof.Proof.Gen.Kernel.Launch
import proofs.«136009_j83459804495948_1_alg».proof.Proof.Gen.Kernel.Points
import proofs.«136009_j83459804495948_1_alg».proof.Proof.Gen.Kernel.Frame
import proofs.«136009_j83459804495948_1_alg».proof.Proof.Gen.KernelIdeal
import proofs.«136009_j83459804495948_1_alg».proof.Proof.Gen.KernelIdeal.Skeleton
import proofs.«136009_j83459804495948_1_alg».proof.Proof.Gen.KernelIdeal.Launch
import proofs.«136009_j83459804495948_1_alg».proof.Proof.Gen.KernelIdeal.Points
import proofs.«136009_j83459804495948_1_alg».proof.Proof.Gen.KernelIdeal.Frame
import proofs.«136009_j83459804495948_1_alg».proof.Proof.Gen.ReferenceIdeal
import proofs.«136009_j83459804495948_1_alg».proof.Proof.Gen.Pre_finite_inputs
import proofs.«136009_j83459804495948_1_alg».proof.Proof.RefValue
import proofs.«136009_j83459804495948_1_alg».proof.Proof.KernelResult
import Idealize.ShloMosaic.Adequacy
import Idealize.ShloMosaic.Init

noncomputable section

namespace Cert.Proof

open Idealize.ShloMosaic Idealize.SL.Sem

theorem frame_k : Cert.frame_Kernel (hKernel := Cert.Kernel.Gen.facts)
    (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both programs end at the closing stage of the plane sums and the plane means of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
